-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) (main_arg2 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S1x16384 : Shape := ⟨2, ![1, 16384]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 37
  | .vmem => 12
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S16384x1, .f32⟩
  | .hbm, ⟨4, _⟩ => ⟨S1x16384, .f32⟩
  | .hbm, ⟨5, _⟩ => ⟨S1x16384, .f32⟩
  | .hbm, ⟨6, _⟩ => ⟨S16384x1, .f32⟩
  | .hbm, ⟨7, _⟩ => ⟨S16384x1, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .i1⟩
  | .hbm, ⟨14, _⟩ => ⟨S16384, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  natLt_1_32 : 1 < 32
  shapeCasts_S16384x1_S16384 : S16384x1.ShapeCasts S16384
  bcast_S_S16384 : S_.BroadcastsInDim S16384 (![] : Fin 0 → Fin S16384.rank)
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S16384, .f32⟩
  | .hbm, ⟨4, _⟩ => ⟨S16384x1, .f32⟩
  | .hbm, ⟨5, _⟩ => ⟨S1x16384, .f32⟩
  | .hbm, ⟨6, _⟩ => ⟨S16384x16384, .f32⟩
  | .hbm, ⟨7, _⟩ => ⟨S16384x16384, .f32⟩
  | .hbm, ⟨8, _⟩ => ⟨S16384x16384, .i1⟩
  | .hbm, ⟨9, _⟩ => ⟨S1x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384, .f32⟩
  | .hbm, ⟨16, _⟩ => ⟨S16384x16384, .i32⟩
  | .hbm, ⟨17, _⟩ => ⟨S_, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  natLt_1_32 : 1 < 32
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.KPieces.lean ====
/-
  What each control case of the kernel body leaves behind, as values.

  The body has three cases by the second grid coordinate `j`: the first tile of a row block (`j = 0`: both carried
  buffers are reset to zero and then updated), a middle tile (updated only), and the last tile (`j = 15`: updated,
  then copied into the two outputs). In every case the first carried buffer ends at the update payload of the
  three input blocks and of what it held before (zero after a reset), and likewise the second; in the last case
  each output ends at the same payload as its buffer.
-/
import proofs.«142903_j61873298866766_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First tile of a row block: the first carried buffer is reset to zero, then updated. -/
theorem soutA0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1 .f32) (x1 : Vec F S1x1024 .f32) (x2 : Vec F S1x1024 .f32) :
    sout0_A_0 c i arg2 harg2 arg3 harg3 arg4 harg4 arg5 harg5 arg6 harg6 arg7 harg7 arg8 harg8 hc0 hc1 x0 x1 x2 = k0_pay4 x0 x1 x2 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- First tile of a row block: the second carried buffer is reset to zero, then updated. -/
theorem soutA1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1 .f32) (x1 : Vec F S1x1024 .f32) (x2 : Vec F S1x1024 .f32) :
    sout0_A_1 c i arg2 harg2 arg3 harg3 arg4 harg4 arg5 harg5 arg6 harg6 arg7 harg7 arg8 harg8 hc0 hc1 x0 x1 x2 = k0_pay5 x0 x1 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- A middle tile: the first carried buffer is updated over what it held. -/
theorem soutB0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1 .f32) (x1 : Vec F S1x1024 .f32) (x2 : Vec F S1x1024 .f32) (xs0 : Vec F S1024x1 .f32) (xs1 : Vec F S1024x1 .f32) :
    sout0_B_0 c i arg2 harg2 arg3 harg3 arg4 harg4 arg5 harg5 arg6 harg6 arg7 harg7 arg8 harg8 hc0 hc1 x0 x1 x2 xs0 xs1 = k0_pay4 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- A middle tile: the second carried buffer is updated over what it held. -/
theorem soutB1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1 .f32) (x1 : Vec F S1x1024 .f32) (x2 : Vec F S1x1024 .f32) (xs0 : Vec F S1024x1 .f32) (xs1 : Vec F S1024x1 .f32) :
    sout0_B_1 c i arg2 harg2 arg3 harg3 arg4 harg4 arg5 harg5 arg6 harg6 arg7 harg7 arg8 harg8 hc0 hc1 x0 x1 x2 xs0 xs1 = k0_pay5 x0 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- The last tile: the first carried buffer is updated over what it held. -/
theorem soutC0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1 .f32) (x1 : Vec F S1x1024 .f32) (x2 : Vec F S1x1024 .f32) (xs0 : Vec F S1024x1 .f32) (xs1 : Vec F S1024x1 .f32) :
    sout0_C_0 c i arg2 harg2 arg3 harg3 arg4 harg4 arg5 harg5 arg6 harg6 arg7 harg7 arg8 harg8 hc0 hc1 x0 x1 x2 xs0 xs1 = k0_pay4 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- The last tile: the second carried buffer is updated over what it held. -/
theorem soutC1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1 .f32) (x1 : Vec F S1x1024 .f32) (x2 : Vec F S1x1024 .f32) (xs0 : Vec F S1024x1 .f32) (xs1 : Vec F S1024x1 .f32) :
    sout0_C_1 c i arg2 harg2 arg3 harg3 arg4 harg4 arg5 harg5 arg6 harg6 arg7 harg7 arg8 harg8 hc0 hc1 x0 x1 x2 xs0 xs1 = k0_pay5 x0 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- The last tile: the first output receives the first carried buffer, already updated. -/
theorem outC3 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1 .f32) (x1 : Vec F S1x1024 .f32) (x2 : Vec F S1x1024 .f32) (xs0 : Vec F S1024x1 .f32) (xs1 : Vec F S1024x1 .f32) :
    out0_C_3 c i arg2 harg2 arg3 harg3 arg4 harg4 arg5 harg5 arg6 harg6 arg7 harg7 arg8 harg8 hc0 hc1 x0 x1 x2 xs0 xs1 = k0_pay4 x0 x1 x2 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

/-- The last tile: the second output receives the second carried buffer, already updated. -/
theorem outC4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1 .f32) (x1 : Vec F S1x1024 .f32) (x2 : Vec F S1x1024 .f32) (xs0 : Vec F S1024x1 .f32) (xs1 : Vec F S1024x1 .f32) :
    out0_C_4 c i arg2 harg2 arg3 harg3 arg4 harg4 arg5 harg5 arg6 harg6 arg7 harg7 arg8 harg8 hc0 hc1 x0 x1 x2 xs0 xs1 = k0_pay5 x0 x1 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1) hz, View.ld_unit_zero (S := S1x1024) hz, View.readCov_unit_zero (S := S1024x1) _ hz]

end Cert.KernelIdeal.Pieces

end
-- ==== Proof.KPayload.lean ====
/-
  The kernel body's arithmetic at one entry, over the extended reals.

  At a grid point the body holds a column block `x0` of 1024 event times, a row block `x1` of 1024 event times
  and a row block `x2` of 1024 risk scores. The payload it adds into the first carried buffer is, at row `p`,
  the sum over the 1024 lanes `l` of `exp (x2 l)` where `x0 p < x1 l` and of zero elsewhere; the payload it adds
  into the second is the number of such lanes, as a float. Both resets store the zero block.
-/
import proofs.«142903_j61873298866766_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- A sum along the lanes of a [1024, 1024] array, read at row `p`: the sum over the lanes `l` of the entry (p, l). -/
theorem laneSum_apply (src : FVec Ideal S1024x1024 .f32) (h : S1024x1024.Reduces [1] S1024)
    (hacc : (0x00000000#32 : BitVec 32) = 0x00000000#32) (p : Fin 1024) :
    multiReduction .add [1] S1024 src 0x00000000#32 h (.inl rfl) hacc (ix1 p) = ∑ l : Fin 1024, src (ix2 p l) := by
  refine (Ideal.multiReduction_add_single src 0x00000000#32 h (.inl rfl) hacc (ix1 p)).trans ?_
  refine Finset.sum_congr rfl fun l _ => congrArg src (funext fun a => Fin.ext ?_)
  match a with
  | ⟨0, _⟩ => rfl
  | ⟨1, _⟩ => rfl

/-- A vector of 1024 entries laid out as a column: entry (p, 0) is entry p. -/
theorem column_apply {α : Type} (v : S1024.Idx → α) (h : S1024.ShapeCasts S1024x1) (p : Fin 1024) :
    shapeCast S1024x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column of 1024 entries repeated along 1024 lanes: entry (p, l) is the column's entry (p, 0). -/
theorem colBroadcast_apply {α : Type} (v : S1024x1.Idx → α) (h : S1024x1.Broadcasts S1024x1024) (p l : Fin 1024) :
    broadcastTo S1024x1024 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The first reset stores zero everywhere. -/
theorem pay1_apply (y : S1024x1.Idx) : (k0_pay1 (F := Ideal)) y = Ideal.ofBits .f32 0x00000000#32 := by
  unfold k0_pay1
  simp only [shapeCast_self]
  rfl

/-- The second reset stores zero everywhere. -/
theorem pay2_apply (y : S1024x1.Idx) : (k0_pay2 (F := Ideal)) y = Ideal.ofBits .f32 0x00000000#32 := by
  unfold k0_pay2
  simp only [shapeCast_self]
  rfl

/-- The update of the first carried buffer at row `p`: what it held plus the lane sum of the selected `exp`s. -/
theorem pay4_apply (x0 : Vec Ideal S1024x1 .f32) (x1 x2 : Vec Ideal S1x1024 .f32) (acc : Vec Ideal S1024x1 .f32)
    (p : Fin 1024) :
    k0_pay4 (F := Ideal) x0 x1 x2 acc (ix2 p (0 : Fin 1))
      = acc (ix2 p (0 : Fin 1)) + ∑ l : Fin 1024,
          Scalar.select (FloatOps.cmpf (F := Ideal) (φ := .f32) .olt (x0 (ix2 p (0 : Fin 1))) (x1 (ix2 (0 : Fin 1) l)))
            (Ideal.exp (x2 (ix2 (0 : Fin 1) l))) (Ideal.ofBits .f32 0x00000000#32) := by
  unfold k0_pay4 k0_pay3
  simp only [shapeCast_self]
  refine congrArg (acc (ix2 p (0 : Fin 1)) + ·) ?_
  refine (column_apply _ _ p).trans ?_
  refine (laneSum_apply _ _ _ p).trans ?_
  refine Finset.sum_congr rfl fun l _ => ?_
  rw [select_apply, cmpf_apply, colBroadcast_apply, broadcastTo_1b_ab_apply, broadcastTo_1b_ab_apply, broadcast_apply]
  rfl

/-- The update of the second carried buffer at row `p`: what it held plus the lane sum of the bits as floats. -/
theorem pay5_apply (x0 : Vec Ideal S1024x1 .f32) (x1 : Vec Ideal S1x1024 .f32) (acc : Vec Ideal S1024x1 .f32)
    (p : Fin 1024) :
    k0_pay5 (F := Ideal) x0 x1 acc (ix2 p (0 : Fin 1))
      = acc (ix2 p (0 : Fin 1)) + ∑ l : Fin 1024,
          FloatOps.sitofp (F := Ideal) .f32
            ((FloatOps.cmpf (F := Ideal) (φ := .f32) .olt (x0 (ix2 p (0 : Fin 1))) (x1 (ix2 (0 : Fin 1) l))).setWidth 32) := by
  unfold k0_pay5 k0_pay3
  simp only [shapeCast_self]
  refine congrArg (acc (ix2 p (0 : Fin 1)) + ·) ?_
  refine (column_apply _ _ p).trans ?_
  refine (laneSum_apply _ _ _ p).trans ?_
  refine Finset.sum_congr rfl fun l _ => ?_
  rw [sitofp_apply, extui_apply, cmpf_apply, colBroadcast_apply, broadcastTo_1b_ab_apply]

end Cert.KernelIdeal.Payload

end
-- ==== Proof.KBlocks.lean ====
/-
  The kernel's three input blocks at a grid point, read entry by entry.

  Grid point `t` (0 ≤ t < 256) works on row block `t / 16` and column tile `t % 16`. Its first input block is a
  column of 1024 event times, entries `1024 * (t / 16) + p` of `T`; its second a row of 1024 event times, entries
  `1024 * (t % 16) + l` of `T`; its third the same entries of the risk scores `P`. The three arrays the blocks are
  cut from are reshapes of `T`, `T` and `P` made before the kernel runs, and a reshape keeps the row-major
  position, so entry `(r, 0)` of the column array and entry `(0, r)` of a row array are both entry `r`.
-/
import proofs.«142903_j61873298866766_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The event times and the risk scores as the program was launched with them. -/
abbrev Tarr (c : Dev nD) : Vec F S16384 .f32 := m ((c : Thread nD τ).loc main_arg1)
abbrev Parr (c : Dev nD) : Vec F S16384 .f32 := m ((c : Thread nD τ).loc main_arg0)

/-- The three input blocks at point `t`, at their literal shapes. -/
abbrev tcol (c : Dev nD) (t : Fin cfg0.N) : Vec F S1024x1 .f32 := iblk m c 0 t
abbrev trow (c : Dev nD) (t : Fin cfg0.N) : Vec F S1x1024 .f32 := iblk m c 1 t
abbrev prow (c : Dev nD) (t : Fin cfg0.N) : Vec F S1x1024 .f32 := iblk m c 2 t

/-- Which block each window reads at point `t`: the column window follows the row block, the two row windows the tile. -/
theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 16 :=
  (by decide +kernel : ∀ t : Fin grid0.N, _)
theorem idx2 : ∀ t : Fin cfg0.N, win0_2.index t (0 : Fin 2) = 0 ∧ win0_2.index t (1 : Fin 2) = t.val % 16 :=
  (by decide +kernel : ∀ t : Fin grid0.N, _)

/-- The arrays the windows are cut from: `T` as a column, `T` as a row, `P` as a row. -/
theorem V_v0 (c : Dev nD) :
    (V m c main_v0 : S16384x1.Idx → Elt F .f32) = shapeCast S16384x1 (Tarr m c) shapeCasts_S16384_S16384x1 := by
  show StableHlo.after hostOps0 (fun b => m (c, b)) (Proc.devRef .tc main_v0) = _
  after_results
  rfl
theorem V_v1 (c : Dev nD) :
    (V m c main_v1 : S1x16384.Idx → Elt F .f32) = shapeCast S1x16384 (Tarr m c) shapeCasts_S16384_S1x16384 := by
  show StableHlo.after hostOps0 (fun b => m (c, b)) (Proc.devRef .tc main_v1) = _
  after_results
  rfl
theorem V_v2 (c : Dev nD) :
    (V m c main_v2 : S1x16384.Idx → Elt F .f32) = shapeCast S1x16384 (Parr m c) shapeCasts_S16384_S1x16384 := by
  show StableHlo.after hostOps0 (fun b => m (c, b)) (Proc.devRef .tc main_v2) = _
  after_results
  rfl

/-- Entry `p` of the column block at point `t` is entry `1024 * (t / 16) + p` of `T`. -/
theorem tcol_apply (c : Dev nD) (t : Fin cfg0.N) (p : Fin 1024) (h : 1024 * (t.val / 16) + p.val < 16384) :
    tcol m c t (ix2 p (0 : Fin 1)) = Tarr m c (ix1 ⟨1024 * (t.val / 16) + p.val, h⟩) := by
  show iblk m c 0 t (ix2 p (0 : Fin 1)) = _
  unfold iblk
  rw [View.read_apply]
  show V m c main_v0 (((cfg0.win 0).blk t).view.emb (ix2 p (0 : Fin 1))) = _
  refine (congrFun (V_v0 m c) _).trans (shapeCast_apply _ _ _ (ix1 ⟨1024 * (t.val / 16) + p.val, h⟩) ?_)
  rw [Shape.rowMajor_val_one, Shape.rowMajor_val_two]
  show 1024 * (t.val / 16) + p.val = (win0_0.index t 0 * 1024 + 1 * p.val) * 1 + (win0_0.index t 1 * 1 + 1 * 0)
  rw [(idx0 t).1, (idx0 t).2]
  omega

/-- Entry `l` of the event-time row block at point `t` is entry `1024 * (t % 16) + l` of `T`. -/
theorem trow_apply (c : Dev nD) (t : Fin cfg0.N) (l : Fin 1024) (h : 1024 * (t.val % 16) + l.val < 16384) :
    trow m c t (ix2 (0 : Fin 1) l) = Tarr m c (ix1 ⟨1024 * (t.val % 16) + l.val, h⟩) := by
  show iblk m c 1 t (ix2 (0 : Fin 1) l) = _
  unfold iblk
  rw [View.read_apply]
  show V m c main_v1 (((cfg0.win 1).blk t).view.emb (ix2 (0 : Fin 1) l)) = _
  refine (congrFun (V_v1 m c) _).trans (shapeCast_apply _ _ _ (ix1 ⟨1024 * (t.val % 16) + l.val, h⟩) ?_)
  rw [Shape.rowMajor_val_one, Shape.rowMajor_val_two]
  show 1024 * (t.val % 16) + l.val = (win0_1.index t 0 * 1 + 1 * 0) * 16384 + (win0_1.index t 1 * 1024 + 1 * l.val)
  rw [(idx1 t).1, (idx1 t).2]
  omega

/-- Entry `l` of the risk-score row block at point `t` is entry `1024 * (t % 16) + l` of `P`. -/
theorem prow_apply (c : Dev nD) (t : Fin cfg0.N) (l : Fin 1024) (h : 1024 * (t.val % 16) + l.val < 16384) :
    prow m c t (ix2 (0 : Fin 1) l) = Parr m c (ix1 ⟨1024 * (t.val % 16) + l.val, h⟩) := by
  show iblk m c 2 t (ix2 (0 : Fin 1) l) = _
  unfold iblk
  rw [View.read_apply]
  show V m c main_v2 (((cfg0.win 2).blk t).view.emb (ix2 (0 : Fin 1) l)) = _
  refine (congrFun (V_v2 m c) _).trans (shapeCast_apply _ _ _ (ix1 ⟨1024 * (t.val % 16) + l.val, h⟩) ?_)
  rw [Shape.rowMajor_val_one, Shape.rowMajor_val_two]
  show 1024 * (t.val % 16) + l.val = (win0_2.index t 0 * 1 + 1 * 0) * 16384 + (win0_2.index t 1 * 1024 + 1 * l.val)
  rw [(idx2 t).1, (idx2 t).2]
  omega

end Cert.KernelIdeal.Blocks

end
-- ==== Proof.TileSum.lean ====
/-
  Regrouping a sum over 16384 entries into 16 consecutive runs of 1024.

  For `f : Fin 16384 → M` in a commutative additive monoid, `upTo f n` is the sum of the first `1024 * n`
  entries (entries past the end count as zero, so that `n` may be any natural number). It starts at zero, each
  step adds the next run of 1024 entries, and after 16 steps it is the sum of all of `f`. Only commutativity and
  associativity of `+` are used, so the statement holds over the extended reals with no finiteness hypothesis.
-/
import Mathlib.Algebra.BigOperators.Fin
import Mathlib.Algebra.BigOperators.Intervals

namespace Cert.TileSum

variable {M : Type*} [AddCommMonoid M]

/-- `f` continued by zero past its last index. -/
def ext (f : Fin 16384 → M) (j : ℕ) : M := if h : j < 16384 then f ⟨j, h⟩ else 0

theorem ext_of_lt (f : Fin 16384 → M) {j : ℕ} (h : j < 16384) : ext f j = f ⟨j, h⟩ := dif_pos h

/-- The sum of the first `1024 * n` entries of `f`. -/
def upTo (f : Fin 16384 → M) (n : ℕ) : M := ∑ j ∈ Finset.range (1024 * n), ext f j

theorem upTo_zero (f : Fin 16384 → M) : upTo f 0 = 0 := by
  simp [upTo]

/-- One more run: the entries `1024 * n + l` for `l < 1024`. -/
theorem upTo_succ (f : Fin 16384 → M) (n : ℕ) :
    upTo f (n + 1) = upTo f n + ∑ l : Fin 1024, ext f (1024 * n + l.val) := by
  unfold upTo
  rw [show 1024 * (n + 1) = 1024 * n + 1024 by omega, Finset.sum_range_add,
    Fin.sum_univ_eq_sum_range (fun l => ext f (1024 * n + l)) 1024]

/-- After sixteen runs every entry has been added exactly once. -/
theorem upTo_all (f : Fin 16384 → M) : upTo f 16 = ∑ j : Fin 16384, f j := by
  unfold upTo
  rw [show 1024 * 16 = 16384 by omega, ← Fin.sum_univ_eq_sum_range (fun j => ext f j) 16384]
  exact Finset.sum_congr rfl fun j _ => ext_of_lt f j.isLt

end Cert.TileSum
-- ==== Proof.RiskSpec.lean ====
/-
  What the loss computes, stated once for both programs.

  For event times `T` and risk scores `P` (16384 entries each), row `i`'s RISK SET is the set of `j` with
  `T i < T j`. Two numbers are taken per row: the sum of `exp (P j)` over the risk set (`psum`) and the size of
  the risk set counted in floats (`cnt`). The row's flag (`risk`) says the risk set is not empty. Everything after
  that — the quotient `exp P / (psum + ε)`, its clip to `[ε, max]`, the logarithm, the weights `E · flag`, the two
  sums and the final quotient — is one function `tail` of (psum, flag, P, E), spelt operation by operation as
  both programs print it, so that neither program's proof ever opens it.
-/
import Idealize.ShloMosaic.PureOps.Ideal
import Idealize.ShloMosaic.PureOps.Ideal.Laws
import Idealize.ShloMosaic.Lib.ValueIdx

noncomputable section

namespace Cert.RiskSet

open Idealize.ShloMosaic Idealize.ShloMosaic.ValueIdx

/-- A vector of 16384 entries, and a scalar. -/
abbrev SN : Shape := ⟨1, ![16384]⟩
abbrev S0 : Shape := ⟨0, ![]⟩

/-- Row `i`'s risk-set bit against `j`: is `T i < T j`. -/
def bit (T : FVec Ideal SN .f32) (i j : Fin 16384) : BitVec 1 :=
  FloatOps.cmpf (F := Ideal) .olt (T (ix1 i)) (T (ix1 j))

/-- One term of the risk-set sum: `exp (P j)` inside the risk set, zero outside. -/
def term (T P : FVec Ideal SN .f32) (i j : Fin 16384) : EReal :=
  Scalar.select (bit T i j) (Ideal.exp (P (ix1 j))) (Ideal.ofBits .f32 0x00000000#32)

/-- One term of the count: the bit as a float, 1 inside the risk set and 0 outside. -/
def one (T : FVec Ideal SN .f32) (i j : Fin 16384) : EReal :=
  FloatOps.sitofp (F := Ideal) .f32 ((bit T i j).setWidth 32)

/-- The sum of `exp (P j)` over row `i`'s risk set. -/
def psumAt (T P : FVec Ideal SN .f32) (i : Fin 16384) : EReal := ∑ j : Fin 16384, term T P i j

/-- The size of row `i`'s risk set, as a float. -/
def cntAt (T : FVec Ideal SN .f32) (i : Fin 16384) : EReal := ∑ j : Fin 16384, one T i j

/-- The same two numbers as arrays. -/
def psum (T P : FVec Ideal SN .f32) : FVec Ideal SN .f32 := fun y => psumAt T P ⟨(y 0).val, (y 0).isLt⟩
def cnt (T : FVec Ideal SN .f32) : FVec Ideal SN .f32 := fun y => cntAt T ⟨(y 0).val, (y 0).isLt⟩

/-- Row `i` has a non-empty risk set: its float count is above zero. -/
def risk (T : FVec Ideal SN .f32) : IVec SN 1 := fun y =>
  FloatOps.cmpf (F := Ideal) .ogt (cnt T y) (Ideal.ofBits .f32 0x00000000#32)

section Tail

variable {F : FTy → Type} [FloatOps F]

/-- Everything both programs do after the per-row sums: with `q = exp P / (ps + ε)` and weights
    `w = float E · float flag`, the result is `-(Σ log (min (max q) (max ε q)) · w) / Σ w`. The three witnesses are
    the shape facts the printed lines cite (a scalar broadcast to 16384 entries; a reduction of 16384 entries to a
    scalar; a scalar has an entry). -/
def tail (hb : S0.BroadcastsInDim SN (![] : Fin 0 → Fin SN.rank)) (hr : SN.ReducesTo [0] S0) (h0 : 0 < S0.numel)
    (ps : FVec F SN .f32) (flag : IVec SN 1) (x0 : FVec F SN .f32) (x2 : IVec SN 32) : FVec F S0 .f32 :=
  Host.divf
    (Host.negf (Host.reduceAdd
      (mulf
        (Host.log (minimumf
          (broadcastInDim SN ![] hb (Host.reduce FloatOps.maximumf
            (Host.divf (Host.exp x0) (addf ps (broadcastInDim SN ![] hb (constant S0 .f32 0x358637BD#32))))
            (constant S0 .f32 0xFF800000#32) hr h0))
          (maximumf (broadcastInDim SN ![] hb (id (constant S0 .f32 0x358637BD#32)))
            (Host.divf (Host.exp x0) (addf ps (broadcastInDim SN ![] hb (constant S0 .f32 0x358637BD#32)))))))
        (mulf (sitofp .f32 x2) (uitofp .f32 flag)))
      (constant S0 .f32 0x00000000#32) hr h0))
    (Host.reduceAdd (mulf (sitofp .f32 x2) (uitofp .f32 flag)) (constant S0 .f32 0x00000000#32) hr h0)

end Tail

end Cert.RiskSet

end
-- ==== Proof.KInvariant.lean ====
/-
  What the two carried buffers hold after every grid point.

  Write `f_r j` for row `r`'s term against `j` (`exp (P j)` if `T r < T j`, else zero) and `g_r j` for the bit as a
  float. Grid point `n` is tile `n % 16` of row block `n / 16`. After it, entry `p` of the first carried buffer is
  the sum of the first `1024 * (n % 16 + 1)` values of `f_r`, and entry `p` of the second the same sum of `g_r`, where
  `r = 1024 * (n / 16) + p`. At the first tile of a row block the buffers are reset to zero before the update, so
  the sums start afresh; at every other tile they continue from the point before, which belongs to the same row
  block. The proof is an induction over the points, never an enumeration of them.
-/
import proofs.«142903_j61873298866766_1_alg».proof.Proof.KPieces
import proofs.«142903_j61873298866766_1_alg».proof.Proof.KPayload
import proofs.«142903_j61873298866766_1_alg».proof.Proof.KBlocks
import proofs.«142903_j61873298866766_1_alg».proof.Proof.TileSum
import proofs.«142903_j61873298866766_1_alg».proof.Proof.RiskSpec

set_option maxRecDepth 16384

noncomputable section

namespace Cert.KernelIdeal.Inv

open Cert.KernelIdeal Cert.KernelIdeal.Gen Cert.KernelIdeal.Blocks Cert.KernelIdeal.Pieces Cert.KernelIdeal.Payload
open Cert.RiskSet Cert.TileSum
open Idealize.ShloMosaic Idealize.ShloMosaic.TcCoe Idealize.SL.Sem Idealize.ShloMosaic.ValueIdx

variable (m : (ℓ : Loc nD τ sig) → Buf (Elt Ideal) ℓ)

theorem N256 : cfg0.N = 256 := N_0

/-- The row of the whole problem that entry `p` of point `t`'s row block is. -/
def rowOf (t : Fin cfg0.N) (p : Fin 1024) : Fin 16384 :=
  ⟨1024 * (t.val / 16) + p.val, by have h := lt_of_lt_of_eq t.isLt N256; have := p.isLt; omega⟩

/-- Row `r`'s terms and bits-as-floats, as functions of the column. -/
abbrev fT (c : Dev nD) (r : Fin 16384) : Fin 16384 → EReal := term (Tarr m c) (Parr m c) r
abbrev gT (c : Dev nD) (r : Fin 16384) : Fin 16384 → EReal := one (Tarr m c) r

/-- The lane sum the first update adds at point `t` is tile `t % 16`'s run of row `rowOf t p`'s terms. -/
theorem tile_term (c : Dev nD) (t : Fin cfg0.N) (p : Fin 1024) :
    (∑ l : Fin 1024, Scalar.select
        (FloatOps.cmpf (F := Ideal) (φ := .f32) .olt (tcol m c t (ix2 p (0 : Fin 1))) (trow m c t (ix2 (0 : Fin 1) l)))
        (Ideal.exp (prow m c t (ix2 (0 : Fin 1) l))) (Ideal.ofBits .f32 0x00000000#32))
      = ∑ l : Fin 1024, ext (fT m c (rowOf t p)) (1024 * (t.val % 16) + l.val) := by
  refine Finset.sum_congr rfl fun l _ => ?_
  have hl : 1024 * (t.val % 16) + l.val < 16384 := by have := l.isLt; omega
  rw [ext_of_lt _ hl, tcol_apply m c t p (rowOf t p).isLt, trow_apply m c t l hl, prow_apply m c t l hl]
  rfl

/-- The lane sum the second update adds at point `t` is the same run of the bits as floats. -/
theorem tile_one (c : Dev nD) (t : Fin cfg0.N) (p : Fin 1024) :
    (∑ l : Fin 1024, FloatOps.sitofp (F := Ideal) .f32
        ((FloatOps.cmpf (F := Ideal) (φ := .f32) .olt (tcol m c t (ix2 p (0 : Fin 1))) (trow m c t (ix2 (0 : Fin 1) l))).setWidth 32))
      = ∑ l : Fin 1024, ext (gT m c (rowOf t p)) (1024 * (t.val % 16) + l.val) := by
  refine Finset.sum_congr rfl fun l _ => ?_
  have hl : 1024 * (t.val % 16) + l.val < 16384 := by have := l.isLt; omega
  rw [ext_of_lt _ hl, tcol_apply m c t p (rowOf t p).isLt, trow_apply m c t l hl]
  rfl

/-- ONE STEP of the first buffer: over `t % 16` runs, the update leaves `t % 16 + 1` runs. -/
theorem step_term (c : Dev nD) (t : Fin cfg0.N) (p : Fin 1024) (acc : Vec Ideal S1024x1 .f32)
    (hacc : acc (ix2 p (0 : Fin 1)) = upTo (fT m c (rowOf t p)) (t.val % 16)) :
    k0_pay4 (F := Ideal) (tcol m c t) (trow m c t) (prow m c t) acc (ix2 p (0 : Fin 1))
      = upTo (fT m c (rowOf t p)) (t.val % 16 + 1) := by
  rw [pay4_apply, hacc, tile_term, upTo_succ]

/-- ONE STEP of the second buffer. -/
theorem step_one (c : Dev nD) (t : Fin cfg0.N) (p : Fin 1024) (acc : Vec Ideal S1024x1 .f32)
    (hacc : acc (ix2 p (0 : Fin 1)) = upTo (gT m c (rowOf t p)) (t.val % 16)) :
    k0_pay5 (F := Ideal) (tcol m c t) (trow m c t) acc (ix2 p (0 : Fin 1))
      = upTo (gT m c (rowOf t p)) (t.val % 16 + 1) := by
  rw [pay5_apply, hacc, tile_one, upTo_succ]

/-- The reset blocks are zero runs. -/
theorem reset1 (f : Fin 16384 → EReal) (y : S1024x1.Idx) : (k0_pay1 (F := Ideal)) y = upTo f 0 := by
  rw [pay1_apply, Ideal.ofBits_zero_f32, upTo_zero]
theorem reset2 (f : Fin 16384 → EReal) (y : S1024x1.Idx) : (k0_pay2 (F := Ideal)) y = upTo f 0 := by
  rw [pay2_apply, Ideal.ofBits_zero_f32, upTo_zero]

/-- A point that is not the first tile of its row block continues the point before: same row block, one tile on. -/
theorem rowOf_prev (n : ℕ) (h : n < cfg0.N) (hprev : n - 1 < cfg0.N) (h0 : ¬n % 16 = 0) (p : Fin 1024) :
    rowOf ⟨n - 1, hprev⟩ p = rowOf ⟨n, h⟩ p := by
  apply Fin.ext
  show 1024 * ((n - 1) / 16) + p.val = 1024 * (n / 16) + p.val
  omega

/-- THE INVARIANT, for both carried buffers. -/
theorem carried (c : Dev nD) : ∀ (n : ℕ) (h : n < cfg0.N) (p : Fin 1024),
    (outsAt0 m c n h).2.2.1 (ix2 p (0 : Fin 1)) = upTo (fT m c (rowOf ⟨n, h⟩ p)) (n % 16 + 1)
    ∧ (outsAt0 m c n h).2.2.2 (ix2 p (0 : Fin 1)) = upTo (gT m c (rowOf ⟨n, h⟩ p)) (n % 16 + 1) := by
  intro n
  induction n using Nat.strong_induction_on with
  | _ n ih =>
    intro h p
    have hN : n < 256 := lt_of_lt_of_eq h N256
    by_cases h0 : n % 16 = 0
    · -- the first tile of a row block: reset, then update
      have h1 : ¬n % 16 = 15 := by omega
      rw [outsAt0_A m c ⟨n, h⟩ h0 h1]
      dsimp only
      constructor
      · refine (congrFun (soutA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩)) (ix2 p (0 : Fin 1))).trans ?_
        refine (step_term m c ⟨n, h⟩ p _ ?_)
        rw [reset1]; exact congrArg _ h0.symm
      · refine (congrFun (soutA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩)) (ix2 p (0 : Fin 1))).trans ?_
        refine (step_one m c ⟨n, h⟩ p _ ?_)
        rw [reset2]; exact congrArg _ h0.symm
    · -- any other tile: update over what the point before left
      have hprev : n - 1 < cfg0.N := Nat.lt_of_le_of_lt (Nat.sub_le _ _) h
      obtain ⟨ih1, ih2⟩ := ih (n - 1) (by omega) hprev p
      rw [rowOf_prev n h hprev h0 p, show (n - 1) % 16 + 1 = n % 16 by omega] at ih1 ih2
      by_cases h1 : n % 16 = 15
      · rw [outsAt0_C m c ⟨n, h⟩ h0 h1]
        dsimp only
        constructor
        · refine (congrFun (soutC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩) (outsAt0 m c (n - 1) hprev).2.2.1 (outsAt0 m c (n - 1) hprev).2.2.2) (ix2 p (0 : Fin 1))).trans ?_
          exact step_term m c ⟨n, h⟩ p _ ih1
        · refine (congrFun (soutC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩) (outsAt0 m c (n - 1) hprev).2.2.1 (outsAt0 m c (n - 1) hprev).2.2.2) (ix2 p (0 : Fin 1))).trans ?_
          exact step_one m c ⟨n, h⟩ p _ ih2
      · rw [outsAt0_B m c ⟨n, h⟩ h0 h1]
        dsimp only
        constructor
        · refine (congrFun (soutB0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩) (outsAt0 m c (n - 1) hprev).2.2.1 (outsAt0 m c (n - 1) hprev).2.2.2) (ix2 p (0 : Fin 1))).trans ?_
          exact step_term m c ⟨n, h⟩ p _ ih1
        · refine (congrFun (soutB1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩) (outsAt0 m c (n - 1) hprev).2.2.1 (outsAt0 m c (n - 1) hprev).2.2.2) (ix2 p (0 : Fin 1))).trans ?_
          exact step_one m c ⟨n, h⟩ p _ ih2

/-- At the last tile of a row block the two outputs receive the two buffers, already updated: all sixteen runs. -/
theorem written (c : Dev nD) (n : ℕ) (h : n < cfg0.N) (h1 : n % 16 = 15) (p : Fin 1024) :
    (outsAt0 m c n h).1 (ix2 p (0 : Fin 1)) = upTo (fT m c (rowOf ⟨n, h⟩ p)) 16
    ∧ (outsAt0 m c n h).2.1 (ix2 p (0 : Fin 1)) = upTo (gT m c (rowOf ⟨n, h⟩ p)) 16 := by
  have hN : n < 256 := lt_of_lt_of_eq h N256
  have h0 : ¬n % 16 = 0 := by omega
  have hprev : n - 1 < cfg0.N := Nat.lt_of_le_of_lt (Nat.sub_le _ _) h
  obtain ⟨ih1, ih2⟩ := carried m c (n - 1) hprev p
  rw [rowOf_prev n h hprev h0 p, show (n - 1) % 16 + 1 = n % 16 by omega] at ih1 ih2
  rw [outsAt0_C m c ⟨n, h⟩ h0 h1]
  dsimp only
  constructor
  · refine (congrFun (outC3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩) (outsAt0 m c (n - 1) hprev).2.2.1 (outsAt0 m c (n - 1) hprev).2.2.2) (ix2 p (0 : Fin 1))).trans ?_
    exact (step_term m c ⟨n, h⟩ p _ ih1).trans (congrArg _ (show n % 16 + 1 = 16 by omega))
  · refine (congrFun (outC4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) _ _ (tcol m c ⟨n, h⟩) (trow m c ⟨n, h⟩) (prow m c ⟨n, h⟩) (outsAt0 m c (n - 1) hprev).2.2.1 (outsAt0 m c (n - 1) hprev).2.2.2) (ix2 p (0 : Fin 1))).trans ?_
    exact (step_one m c ⟨n, h⟩ p _ ih2).trans (congrArg _ (show n % 16 + 1 = 16 by omega))

end Cert.KernelIdeal.Inv

end
-- ==== Proof.KFinal.lean ====
/-
  The two arrays the kernel leaves behind.

  Output 3 is a column of 16384 entries and ends holding, at row `r`, the sum of `exp (P j)` over row `r`'s risk
  set; output 4 the size of that risk set as a float. Each is written back block by block, one block of 1024 rows per
  row block, and only at the last of the sixteen tiles, when the carried buffer has seen all sixteen runs; the
  sixteen blocks tile the array, so every entry is written exactly by the point `16 * (r / 1024) + 15`.
-/
import proofs.«142903_j61873298866766_1_alg».proof.Proof.KInvariant

set_option maxRecDepth 16384

noncomputable section

namespace Cert.KernelIdeal.Final

open Cert.KernelIdeal Cert.KernelIdeal.Gen Cert.KernelIdeal.Blocks Cert.KernelIdeal.Inv
open Cert.RiskSet Cert.TileSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The row sums and the row counts, laid out as columns. -/
def sumCol (c : Dev nD) : Vec Ideal S16384x1 .f32 := fun y => psumAt (Tarr m c) (Parr m c) ⟨(y 0).val, (y 0).isLt⟩
def cntCol (c : Dev nD) : Vec Ideal S16384x1 .f32 := fun y => cntAt (Tarr m c) ⟨(y 0).val, (y 0).isLt⟩

/-- Which block output 3 writes at point `t`: the row block, `t / 16`. -/
theorem idx3 : ∀ t : Fin cfg0.N, win0_3.index t (0 : Fin 2) = t.val / 16 ∧ win0_3.index t (1 : Fin 2) = 0 :=
  (by decide +kernel : ∀ t : Fin grid0.N, _)

/-- For output 3 at point `t`: a staged block `X` whose every entry is the matching entry of a column `G` is, as
    written back, block `t` of `G`: this window is never cut, so what is written back is the staged block itself. -/
theorem cut_read3 (t : Fin cfg0.N) (X : Vec Ideal S1024x1 .f32) (G : Vec Ideal S16384x1 .f32)
    (h : ∀ p : Fin 1024, X (ix2 p (0 : Fin 1)) = G (((cfg0.win 3).blk t).view.emb (ix2 p (0 : Fin 1)))) :
    (cfg0.win 3).cut (grid0.coords t) X = ((cfg0.win 3).blk t).view.read (Elt Ideal) G := by
  funext y
  obtain ⟨p, q, rfl⟩ : ∃ (p : Fin 1024) (q : Fin 1), y = ix2 p q := ⟨y 0, y 1, eq_ix2 y⟩
  obtain rfl : q = 0 := Subsingleton.elim _ _
  rw [View.read_apply]
  exact h p

/-- What a point that writes output 3 back writes: its block of `sumCol`. Only the last tile of a row block writes
    back, and there the output holds all sixteen runs of each of its rows, that is the whole row sum. -/
theorem flushed3 (c : Dev nD) (t : Fin cfg0.N) (hf : (cfg0.win 3).flush t = true) :
    (dats m 0 c).flushed 3 t = ((cfg0.win 3).blk t).view.read (Elt Ideal) (sumCol m c) := by
  have h15 : t.val % 16 = 15 := (flush0_3 t).mp hf
  show (cfg0.win 3).cut (grid0.coords t) ((dats m 0 c).after 3 t) = _
  rw [after0_3]
  refine cut_read3 t _ _ fun p => ?_
  rw [(written m c t.val t.isLt h15 p).1, upTo_all]
  show (∑ j, fT m c (rowOf ⟨t.val, t.isLt⟩ p) j) = psumAt _ _ _
  unfold psumAt
  refine Finset.sum_congr rfl fun j _ => congrArg (fun r => fT m c r j) (Fin.ext ?_)
  show 1024 * (t.val / 16) + p.val = win0_3.index t 0 * 1024 + 1 * p.val
  rw [(idx3 t).1]; omega

/-- An entry of output 3's array lies in point `t`'s block iff each coordinate is in the block's range. -/
theorem mem_blk3 (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3_0).slice (win0_3.rect t)).set ↔ _
  rw [View.set_slice_whole, Rect.mem_set_unit]
  exact Iff.rfl

/-- Every entry of output 3's array is written back: row `r` by the last tile of row block `r / 1024`. -/
theorem cover3 (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have ht : 16 * ((i 0).val / 1024) + 15 < cfg0.N := by rw [N256]; omega
  refine ⟨⟨16 * ((i 0).val / 1024) + 15, ht⟩, (flush0_3 _).mpr (by show (16 * ((i 0).val / 1024) + 15) % 16 = 15; omega), ?_⟩
  rw [mem_blk3]
  obtain ⟨e0, e1⟩ := idx3 ⟨16 * ((i 0).val / 1024) + 15, ht⟩
  intro a
  match a with
  | ⟨0, _⟩ =>
    show win0_3.index ⟨16 * ((i 0).val / 1024) + 15, ht⟩ (0 : Fin 2) * 1024 ≤ (i 0).val ∧ (i 0).val < win0_3.index ⟨16 * ((i 0).val / 1024) + 15, ht⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_3.index ⟨16 * ((i 0).val / 1024) + 15, ht⟩ (1 : Fin 2) * 1 ≤ (i 1).val ∧ (i 1).val < win0_3.index ⟨16 * ((i 0).val / 1024) + 15, ht⟩ (1 : Fin 2) * 1 + 1
    rw [e1]
    omega

/-- So output 3's array ends at `sumCol`. -/
theorem final3 (c : Dev nD) : (dats m 0 c).arrAt 3 cfg0.N = sumCol m c :=
  (dats m 0 c).arrAt_eq_of_cover 3 (sumCol m c) (flushed3 m c) cover3

/-- Which block output 4 writes at point `t`: the row block, `t / 16`. -/
theorem idx4 : ∀ t : Fin cfg0.N, win0_4.index t (0 : Fin 2) = t.val / 16 ∧ win0_4.index t (1 : Fin 2) = 0 :=
  (by decide +kernel : ∀ t : Fin grid0.N, _)

/-- For output 4 at point `t`: a staged block `X` whose every entry is the matching entry of a column `G` is, as
    written back, block `t` of `G`: this window is never cut, so what is written back is the staged block itself. -/
theorem cut_read4 (t : Fin cfg0.N) (X : Vec Ideal S1024x1 .f32) (G : Vec Ideal S16384x1 .f32)
    (h : ∀ p : Fin 1024, X (ix2 p (0 : Fin 1)) = G (((cfg0.win 4).blk t).view.emb (ix2 p (0 : Fin 1)))) :
    (cfg0.win 4).cut (grid0.coords t) X = ((cfg0.win 4).blk t).view.read (Elt Ideal) G := by
  funext y
  obtain ⟨p, q, rfl⟩ : ∃ (p : Fin 1024) (q : Fin 1), y = ix2 p q := ⟨y 0, y 1, eq_ix2 y⟩
  obtain rfl : q = 0 := Subsingleton.elim _ _
  rw [View.read_apply]
  exact h p

/-- What a point that writes output 4 back writes: its block of `cntCol`. Only the last tile of a row block writes
    back, and there the output holds all sixteen runs of each of its rows, that is the whole row sum. -/
theorem flushed4 (c : Dev nD) (t : Fin cfg0.N) (hf : (cfg0.win 4).flush t = true) :
    (dats m 0 c).flushed 4 t = ((cfg0.win 4).blk t).view.read (Elt Ideal) (cntCol m c) := by
  have h15 : t.val % 16 = 15 := (flush0_4 t).mp hf
  show (cfg0.win 4).cut (grid0.coords t) ((dats m 0 c).after 4 t) = _
  rw [after0_4]
  refine cut_read4 t _ _ fun p => ?_
  rw [(written m c t.val t.isLt h15 p).2, upTo_all]
  show (∑ j, gT m c (rowOf ⟨t.val, t.isLt⟩ p) j) = cntAt _ _
  unfold cntAt
  refine Finset.sum_congr rfl fun j _ => congrArg (fun r => gT m c r j) (Fin.ext ?_)
  show 1024 * (t.val / 16) + p.val = win0_4.index t 0 * 1024 + 1 * p.val
  rw [(idx4 t).1]; omega

/-- An entry of output 4's array lies in point `t`'s block iff each coordinate is in the block's range. -/
theorem mem_blk4 (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3_1).slice (win0_4.rect t)).set ↔ _
  rw [View.set_slice_whole, Rect.mem_set_unit]
  exact Iff.rfl

/-- Every entry of output 4's array is written back: row `r` by the last tile of row block `r / 1024`. -/
theorem cover4 (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have ht : 16 * ((i 0).val / 1024) + 15 < cfg0.N := by rw [N256]; omega
  refine ⟨⟨16 * ((i 0).val / 1024) + 15, ht⟩, (flush0_4 _).mpr (by show (16 * ((i 0).val / 1024) + 15) % 16 = 15; omega), ?_⟩
  rw [mem_blk4]
  obtain ⟨e0, e1⟩ := idx4 ⟨16 * ((i 0).val / 1024) + 15, ht⟩
  intro a
  match a with
  | ⟨0, _⟩ =>
    show win0_4.index ⟨16 * ((i 0).val / 1024) + 15, ht⟩ (0 : Fin 2) * 1024 ≤ (i 0).val ∧ (i 0).val < win0_4.index ⟨16 * ((i 0).val / 1024) + 15, ht⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_4.index ⟨16 * ((i 0).val / 1024) + 15, ht⟩ (1 : Fin 2) * 1 ≤ (i 1).val ∧ (i 1).val < win0_4.index ⟨16 * ((i 0).val / 1024) + 15, ht⟩ (1 : Fin 2) * 1 + 1
    rw [e1]
    omega

/-- So output 4's array ends at `cntCol`. -/
theorem final4 (c : Dev nD) : (dats m 0 c).arrAt 4 cfg0.N = cntCol m c :=
  (dats m 0 c).arrAt_eq_of_cover 4 (cntCol m c) (flushed4 m c) cover4

end Cert.KernelIdeal.Final

end
-- ==== Proof.KTail.lean ====
/-
  The kernel program's result.

  After the kernel the program reshapes its two output columns to vectors, tests the count vector against zero, and
  runs the shared tail. The column of row sums read as a vector is `psum`; the test of the column of counts is the
  row flag `risk`; so the result is `tail` of those two, of the risk scores and of the event indicators, which is
  the same expression the reference ends in.
-/
import proofs.«142903_j61873298866766_1_alg».proof.Proof.KFinal
import Idealize.ShloMosaic.Lib.StableHlo.Run

set_option maxRecDepth 16384

noncomputable section

namespace Cert.KernelIdeal.Tail

open Cert.KernelIdeal Cert.KernelIdeal.Gen Cert.KernelIdeal.Blocks Cert.KernelIdeal.Inv Cert.KernelIdeal.Final
open Cert.RiskSet
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The event indicators as launched. -/
abbrev Earr (c : Dev nD) : IVec S16384 32 := m ((c : Thread nD τ).loc main_arg2)

/-- The program's result on core `c`. -/
def result (c : Dev nD) : FVec Ideal S_ .f32 :=
  tail (F := Ideal) bcast_S_S16384 reducesTo_S16384_S_d0 h_S_ (psum (Tarr m c) (Parr m c)) (risk (Tarr m c)) (Parr m c) (Earr m c)

/-- The column of row sums read back as a vector is `psum`: a reshape keeps the row-major position. -/
theorem sumCol_flat (c : Dev nD) :
    shapeCast S16384 (sumCol m c) shapeCasts_S16384x1_S16384 = psum (Tarr m c) (Parr m c) := by
  funext y
  obtain ⟨i, rfl⟩ : ∃ i : Fin 16384, y = ix1 i := ⟨y 0, eq_ix1 y⟩
  refine (shapeCast_apply _ _ (ix1 i) (ix2 i (0 : Fin 1)) ?_).trans rfl
  rw [Shape.rowMajor_val_one, Shape.rowMajor_val_two]
  show i.val * 1 + 0 = i.val
  omega

/-- The column of row counts read back as a vector is `cnt`. -/
theorem cntCol_flat (c : Dev nD) :
    shapeCast S16384 (cntCol m c) shapeCasts_S16384x1_S16384 = cnt (Tarr m c) := by
  funext y
  obtain ⟨i, rfl⟩ : ∃ i : Fin 16384, y = ix1 i := ⟨y 0, eq_ix1 y⟩
  refine (shapeCast_apply _ _ (ix1 i) (ix2 i (0 : Fin 1)) ?_).trans rfl
  rw [Shape.rowMajor_val_one, Shape.rowMajor_val_two]
  show i.val * 1 + 0 = i.val
  omega

set_option maxHeartbeats 2000000 in
/-- The host lines after the kernel, at any float instance and from any buffer contents `W`: the result buffer ends at
    the shared tail of the first output column read as a vector, of the test of the second against zero, of the risk
    scores and of the event indicators. It holds whatever the float operations are: the lines after the kernel are,
    operation by operation, the tail's own. -/
theorem afterTail_shape {F : FTy → Type} [FloatOps F] (W : Valuation τ sig (Elt F)) :
    StableHlo.after (List.flatten [hostOps1 (F := F), hostOps1_1, hostOps1_2]) W (Proc.devRef .tc main_v22)
      = tail (F := F) bcast_S_S16384 reducesTo_S16384_S_d0 h_S_
          (shapeCast S16384 (W (Proc.devRef .tc main_v3_0)) shapeCasts_S16384x1_S16384)
          (cmpf .ogt (shapeCast S16384 (W (Proc.devRef .tc main_v3_1)) shapeCasts_S16384x1_S16384)
            (broadcastInDim S16384 ![] bcast_S_S16384 (constant S_ .f32 0x00000000#32)))
          (W (Proc.devRef .tc main_arg0)) (W (Proc.devRef .tc main_arg2)) := by
  simp only [hostOps1, hostOps1_1, hostOps1_2, List.flatten_cons, List.flatten_nil, List.append_nil, List.cons_append,
    List.nil_append]
  after_results_simp
  simp only [TRef.ofBuf, TRef.toBuf, cast_eq]
  rfl

/-- The float test of the row counts is the row flag. -/
theorem flag_eq (c : Dev nD) :
    cmpf .ogt (cnt (Tarr m c)) (broadcastInDim S16384 ![] bcast_S_S16384 (constant (F := Ideal) S_ .f32 0x00000000#32))
      = risk (Tarr m c) := by
  funext y
  rfl

/-- The host lines after the kernel, read off the frame run's post: the result buffer holds `result`. -/
theorem result_eq (c : Dev nD) :
    Pipeline.afterTail₀ cfgs (dats m) 0 (V0 m) [hostOps1, hostOps1_1, hostOps1_2] c main_v22 = result m c := by
  unfold Pipeline.afterTail₀
  generalize hW : Pipeline.withArrays _ c _ _ = W
  have h3 : W (Proc.devRef .tc main_v3_0) = sumCol m c := by
    rw [← hW]; exact (Pipeline.withArrays_arr spec0 launch0.win.arr_inj c _ _ 3).trans (final3 m c)
  have h4 : W (Proc.devRef .tc main_v3_1) = cntCol m c := by
    rw [← hW]; exact (Pipeline.withArrays_arr spec0 launch0.win.arr_inj c _ _ 4).trans (final4 m c)
  have ha0 : W (Proc.devRef .tc main_arg0) = Parr m c := by
    rw [← hW, Pipeline.withArrays_of_ne _ c (V0 m c) _ main_arg0 (by exact (by decide : ∀ w, Pipeline.arrRef spec0 w ≠ main_arg0))]
    exact V_main_arg0 m c
  have ha2 : W (Proc.devRef .tc main_arg2) = Earr m c := by
    rw [← hW, Pipeline.withArrays_of_ne _ c (V0 m c) _ main_arg2 (by exact (by decide : ∀ w, Pipeline.arrRef spec0 w ≠ main_arg2))]
    exact V_main_arg2 m c
  refine (afterTail_shape W).trans ?_
  rw [h3, h4, ha0, ha2, sumCol_flat, cntCol_flat, flag_eq]
  rfl

/-- THE KERNEL PROGRAM'S RUN: every weakly fair execution terminates with the result buffer at `result` and the three
    arguments as launched. The frame run gives the result buffer as the host lines after the kernel applied to what the
    kernel left (`result_eq`), and each argument as a buffer no line writes. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.RiskCount.lean ====
/-
  The row flag, two ways.

  Row `i` has a non-empty risk set exactly when the number `n` of `j` with `T i < T j` is positive. One program
  counts in floats: it sums the bits as 0.0 / 1.0 and asks whether the sum is above zero; the sum is the real number
  `n`. The other counts in 32-bit integers and asks whether the count is above zero as a signed word; `n` is at
  most 16384, far below 2^31, so the signed reading of the word is `n` itself. Both tests say `0 < n`.
-/
import proofs.«142903_j61873298866766_1_alg».proof.Proof.RiskSpec
import Idealize.ShloMosaic.Lib.StableHlo.Predicate
import Idealize.ShloMosaic.Lib.KernelVsHost
import Mathlib.Algebra.BigOperators.Ring.Finset
import Mathlib.Data.EReal.Basic

noncomputable section

namespace Cert.RiskSet

open Idealize.ShloMosaic Idealize.ShloMosaic.ValueIdx

/-- The coercion of reals into the extended reals commutes with finite sums. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- Two one-bit words that are set together are equal. -/
theorem bit_ext : ∀ b c : BitVec 1, (b = 1#1 ↔ c = 1#1) → b = c := by decide

/-- A bit as a float is 1 when set and 0 when clear. -/
theorem one_eq (T : FVec Ideal SN .f32) (i j : Fin 16384) :
    one T i j = (((if bit T i j = 1#1 then 1 else 0 : ℝ)) : EReal) := by
  show (((((bit T i j).setWidth 32).toInt : ℤ) : ℝ) : EReal) = _
  rw [toInt_setWidth_bit]
  rcases BitVec.eq_zero_or_eq_one (bit T i j) with h | h <;> rw [h] <;> simp

/-- The float count of row `i` is the number of set bits, as a real number. -/
theorem cntAt_eq_card (T : FVec Ideal SN .f32) (i : Fin 16384) :
    cntAt T i = (((Finset.univ.filter fun j : Fin 16384 => bit T i j = 1#1).card : ℝ) : EReal) := by
  unfold cntAt
  rw [Finset.sum_congr rfl fun j _ => one_eq T i j, ← coe_sum, Finset.sum_boole]

/-- THE FLAG: for a 32-bit word whose value is the number of set bits of row `i`, its signed test against zero is
    the float count's test against zero. -/
theorem flag_eq_of_count (T : FVec Ideal SN .f32) (i : Fin 16384) (w : BitVec 32)
    (hw : w.toNat = (Finset.univ.filter fun j : Fin 16384 => bit T i j = 1#1).card) :
    IntOp.cmpi .sgt w 0#32 = risk T (ix1 i) := by
  have hle : (Finset.univ.filter fun j : Fin 16384 => bit T i j = 1#1).card ≤ 16384 :=
    (Finset.card_filter_le _ _).trans (by simp)
  refine bit_ext _ _ ?_
  rw [StableHlo.Predicate.sgt_iff_toNat (by omega) (by decide), hw]
  show 0 < _ ↔ FloatOps.cmpf (F := Ideal) (φ := .f32) .ogt (cntAt T i) (Ideal.ofBits .f32 0x00000000#32) = 1#1
  rw [Ideal.cmpf_def, Ideal.cmp, StableHlo.Predicate.ofBool_eq_one_iff, decide_eq_true_iff, Ideal.ofBits_zero_f32,
    cntAt_eq_card, ← EReal.coe_zero, EReal.coe_lt_coe_iff, Nat.cast_pos]

end Cert.RiskSet

end
-- ==== Proof.RefValue.lean ====
/-
  What the reference computes, in the words of the specification.

  The reference lays `T` out along the rows and along the columns of a 16384 × 16384 square, compares, selects
  `exp P` where the comparison holds, and sums each row: entry `i` of that sum is `psum` at `i` (the sum starts
  from the zero word, and `0 + s = s`). It also widens the comparison bits to 32-bit integers, sums each row and
  tests the count against zero as a signed word: that is the row flag `risk`, because the count is the number of
  set bits and cannot wrap. Everything after these two is the shared `tail`.
-/
import proofs.«142903_j61873298866766_1_alg».proof.Proof.RefRead
import proofs.«142903_j61873298866766_1_alg».proof.Proof.RiskCount

noncomputable section

namespace Cert.ReferenceIdeal.RefValue

open Cert.ReferenceIdeal Cert.ReferenceIdeal.Gen Cert.ReferenceIdeal.PRead Cert.RiskSet
open Idealize.ShloMosaic Idealize.ShloMosaic.ValueIdx

/-- The composed index maps of the reference's broadcasts, at entry (i, j) of the square. -/
theorem idx_row (i j : Fin 16384) : idx_main_v1 (idx_main_v3 (ix2 i j)) = ix1 i :=
  funext fun a => Fin.ext (by match a with | ⟨0, _⟩ => rfl)
theorem idx_col (i j : Fin 16384) : idx_main_v2 (idx_main_v4 (ix2 i j)) = ix1 j :=
  funext fun a => Fin.ext (by match a with | ⟨0, _⟩ => rfl)
theorem idx_exp (i j : Fin 16384) : idx_main_v6 (idx_main_call0_v0 (ix2 i j)) = ix1 j :=
  funext fun a => Fin.ext (by match a with | ⟨0, _⟩ => rfl)
theorem idx_sum (i k : Fin 16384) : idx_main_v8 (ix1 i) k = ix2 i k :=
  funext fun a => Fin.ext (by match a with | ⟨0, _⟩ => rfl | ⟨1, _⟩ => rfl)

/-- The reference's comparison at (i, j) is the risk-set bit. -/
theorem mask_apply (x1 : FVec Ideal S16384 .f32) (i j : Fin 16384) :
    val_main_v5 (F := Ideal) x1 (ix2 i j) = bit x1 i j := by
  rw [val_main_v5_apply, val_main_v3_apply, val_main_v4_apply, val_main_v1_apply, val_main_v2_apply, idx_row, idx_col]
  rfl

/-- The reference's selected value at (i, j) is row `i`'s term against `j`. -/
theorem term_apply (x0 x1 : FVec Ideal S16384 .f32) (i j : Fin 16384) :
    val_main_v7 (F := Ideal) x0 x1 (ix2 i j) = term x1 x0 i j := by
  rw [val_main_v7_apply, mask_apply, val_main_call0_v0_apply, val_main_v6_apply, val_main_v0_apply, idx_exp,
    val_main_call0_v1_apply, val_main_cst_apply]
  rfl

/-- The reference's row sums are `psum`. -/
theorem ref_psum (x0 x1 : FVec Ideal S16384 .f32) : val_main_v8 (F := Ideal) x0 x1 = psum x1 x0 := by
  funext y
  obtain ⟨i, rfl⟩ : ∃ i : Fin 16384, y = ix1 i := ⟨y 0, eq_ix1 y⟩
  rw [val_main_v8_apply, val_main_cst_0_apply]
  show FloatOps.ofBits (F := Ideal) .f32 0x00000000#32 + _ = ∑ j : Fin 16384, term x1 x0 i j
  rw [Ideal.ofBits_def, Ideal.ofBits_zero_f32, zero_add]
  exact Finset.sum_congr rfl fun k _ => by rw [idx_sum, term_apply]

/-- The reference's signed test of its integer row counts is `risk`. -/
theorem ref_risk (x1 : FVec Ideal S16384 .f32) : val_main_v12 (F := Ideal) x1 = risk x1 := by
  funext y
  obtain ⟨i, rfl⟩ : ∃ i : Fin 16384, y = ix1 i := ⟨y 0, eq_ix1 y⟩
  rw [val_main_v12_apply, val_main_v11_apply, val_main_c_1_apply]
  refine flag_eq_of_count x1 i _ ?_
  unfold val_main_v10 val_main_v9 val_main_c
  rw [StableHlo.Predicate.toNat_reduce_count_cols (by norm_num) (val_main_v5 (F := Ideal) x1) natLt_1_32
    reducesTo_S16384x16384_S16384_d1 h_S_ (ix1 i)]
  refine congrArg Finset.card (Finset.filter_congr fun q _ => ?_)
  rw [← mask_apply x1 i q]
  rfl

/-- The reference's result is the shared tail of its row sums and its row flags. -/
theorem ref_tail {F : FTy → Type} [FloatOps F] (x0 x1 : (⟨S16384, .f32⟩ : BufTy).Contents (Elt F))
    (x2 : (⟨S16384, .i32⟩ : BufTy).Contents (Elt F)) :
    val_main_v26 (F := F) x0 x1 x2
      = tail (F := F) bcast_S_S16384 reducesTo_S16384_S_d0 h_S_ (val_main_v8 (F := F) x0 x1) (val_main_v12 (F := F) x1) x0 x2 :=
  rfl

/-- So, over the extended reals, the reference's result is `tail` of the specification's two arrays. -/
theorem ref_result (x0 x1 : FVec Ideal S16384 .f32) (x2 : IVec S16384 32) :
    val_main_v26 (F := Ideal) x0 x1 x2
      = tail (F := Ideal) bcast_S_S16384 reducesTo_S16384_S_d0 h_S_ (psum x1 x0) (risk x1) x0 x2 := by
  rw [ref_tail, ref_psum, ref_risk]

end Cert.ReferenceIdeal.RefValue

end
-- ==== Proof.lean ====
/-
  The Cox partial-likelihood loss: a tiled Pallas kernel against its jnp reference, over the extended reals.

  Both programs take risk scores `P`, event times `T` and event indicators `E` (16384 entries each). Row `i`'s risk
  set is `{ j | T i < T j }`. Both compute per row the sum of `exp (P j)` over the risk set and whether the risk set
  is non-empty, and then the same closing expression: the quotient `exp P / (sum + ε)`, clipped to `[ε, its maximum]`,
  its logarithm weighted by `E` on the rows with a non-empty risk set, summed, negated and divided by the total weight.

  They differ in two places only.
  * THE ROW SUMS. The kernel walks a 16 × 16 grid: at point (i, j) it adds, into a buffer it keeps across the sixteen
    points of row block `i`, the sum over the 1024 lanes of tile `j`; the reference sums all 16384 columns at once.
    Over the extended reals addition is commutative and associative, so sixteen consecutive runs of 1024 terms, added
    from zero, are the whole sum. No finiteness of the inputs is needed, and the precondition is never opened.
  * THE ROW FLAG. The kernel counts the risk set in floats (a sum of 0.0 / 1.0) and tests the sum against zero; the
    reference counts in 32-bit integers and tests the count as a signed word. Both say that the number of `j` with
    `T i < T j` is positive: the count is at most 16384 and cannot wrap.

  The closing expression is carried as one function of (row sums, row flags, P, E) and never opened. The ideal pass
  rewrote nothing, so `preserves` is `True`. The two kernels' frames are the generated ones; the reference's frame is
  its run with the result dropped.
-/
import proofs.«142903_j61873298866766_1_alg».proof.Defs
import proofs.«142903_j61873298866766_1_alg».proof.Proof.Gen.Kernel
import proofs.«142903_j61873298866766_1_alg».proof.Proof.Gen.Kernel.Skeleton
import proofs.«142903_j61873298866766_1_alg».proof.Proof.Gen.Kernel.Launch
import proofs.«142903_j61873298866766_1_alg».proof.Proof.Gen.Kernel.Points
import proofs.«142903_j61873298866766_1_alg».proof.Proof.Gen.Kernel.Frame
import proofs.«142903_j61873298866766_1_alg».proof.Proof.Gen.KernelIdeal
import proofs.«142903_j61873298866766_1_alg».proof.Proof.Gen.KernelIdeal.Skeleton
import proofs.«142903_j61873298866766_1_alg».proof.Proof.Gen.KernelIdeal.Launch
import proofs.«142903_j61873298866766_1_alg».proof.Proof.Gen.KernelIdeal.Points
import proofs.«142903_j61873298866766_1_alg».proof.Proof.Gen.KernelIdeal.Frame
import proofs.«142903_j61873298866766_1_alg».proof.Proof.Gen.ReferenceIdeal
import proofs.«142903_j61873298866766_1_alg».proof.Proof.Gen.Pre_finite_inputs
import proofs.«142903_j61873298866766_1_alg».proof.Proof.KTail
import proofs.«142903_j61873298866766_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The ideal pass rewrote no operation. -/
theorem preserves : Cert.preserves_Kernel_KernelIdeal := trivial

/-- Both programs end at the shared closing expression of the same row sums, the same row flags and the same
    arguments: the kernel by its run read off the grid, the reference by its run read one operation at a time. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v26_eq, Cert.ReferenceIdeal.RefValue.ref_result,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
